-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x32 : Shape := ⟨4, ![8, 128, 128, 32]⟩
abbrev S_ : Shape := ⟨0, ![]⟩

class Facts : Prop where
  bcast_S_S8x128x128x32 : S_.BroadcastsInDim S8x128x128x32 (![] : Fin 0 → Fin S8x128x128x32.rank)
  reducesTo_S8x128x128x32_S_d0_1_2_3 : S8x128x128x32.ReducesTo [0, 1, 2, 3] S_
  h_S_ : 0 < S_.numel

variable [Facts]

def fn {F : FTy → Type} [FloatOps F] (main_arg0 : FVec F S8x128x128x32 .f32) : IVec S_ 1 :=
  let main_v0 : FVec F S8x128x128x32 .f32 := Host.absf main_arg0
  let main_cst : FVec F S_ .f32 := constant S_ .f32 0x7F800000#32
  let main_v1 : FVec F S8x128x128x32 .f32 := broadcastInDim S8x128x128x32 ![] bcast_S_S8x128x128x32 main_cst
  let main_v2 : IVec S8x128x128x32 1 := cmpf .olt main_v0 main_v1
  let main_c : IVec S_ 1 := constantI S_ 1 1#1
  let main_v3 : IVec S_ 1 := (fun x v => Host.reduce IntOp.andi x v reducesTo_S8x128x128x32_S_d0_1_2_3 h_S_) main_v2 main_c
  main_v3
-- ==== Kernel.lean ====
abbrev S8x128x128x32 : Shape := ⟨4, ![8, 128, 128, 32]⟩
abbrev S_ : Shape := ⟨0, ![]⟩
abbrev S8x132x132x32 : Shape := ⟨4, ![8, 132, 132, 32]⟩
abbrev S8x128x128x800 : Shape := ⟨4, ![8, 128, 128, 800]⟩
abbrev S1x132x132x32 : Shape := ⟨4, ![1, 132, 132, 32]⟩
abbrev S1x32x128x800 : Shape := ⟨4, ![1, 32, 128, 800]⟩
abbrev S1x32x132x32 : Shape := ⟨4, ![1, 32, 132, 32]⟩
abbrev S32x132x32 : Shape := ⟨3, ![32, 132, 32]⟩
abbrev S32x128x32 : Shape := ⟨3, ![32, 128, 32]⟩
abbrev S1x32x128x32 : Shape := ⟨4, ![1, 32, 128, 32]⟩

abbrev nBuf : Space → Nat
  | .hbm => 5
  | .vmem => 4
  | .smem => 0
  | _ => 0

abbrev bufTy : (tb : Table) → Fin (tcTables nBuf tb) → BufTy
  | .hbm, ⟨0, _⟩ => ⟨S8x128x128x32, .f32⟩
  | .hbm, ⟨1, _⟩ => ⟨S_, .i32⟩
  | .hbm, ⟨2, _⟩ => ⟨S_, .f32⟩
  | .hbm, ⟨3, _⟩ => ⟨S8x132x132x32, .f32⟩
  | .hbm, ⟨4, _⟩ => ⟨S8x128x128x800, .f32⟩
  | .local _ .vmem, ⟨0, _⟩ => ⟨S1x132x132x32, .f32⟩
  | .local _ .vmem, ⟨1, _⟩ => ⟨S1x132x132x32, .f32⟩
  | .local _ .vmem, ⟨2, _⟩ => ⟨S1x32x128x800, .f32⟩
  | .local _ .vmem, ⟨3, _⟩ => ⟨S1x32x128x800, .f32⟩
  | _, _ => ⟨S8x128x128x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 4 → Nat :=
  let c0 : Index := 0#32
  let arg1 : BitVec 32 := BitVec.ofNat 32 (i 1).val
  let c32_i32 : BitVec 32 := 32#32
  let v0 : BitVec 32 := Scalar.muli arg1 c32_i32
  let v1 : BitVec 32 := Scalar.addi v0 c0_i32
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x132x132x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x128x800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S8x128x128x32_S8x132x132x32_000_220_220_000 : S8x128x128x32.Pads (![0, 2, 2, 0] : Fin 4 → Nat) ![0, 2, 2, 0] ![0, 0, 0, 0] S8x132x132x32
  h_S_ : 0 < S_.numel
  h_S1x32x132x32 : 0 < S1x32x132x32.numel
  shapeCasts_S1x32x132x32_S32x132x32 : S1x32x132x32.ShapeCasts S32x132x32
  slices_S32x132x32_o0_0_0_S32x128x32 : S32x132x32.Slices ![0, 0, 0] S32x128x32
  inb_S1x32x128x800_S1x32x128x32_0_0_0_0 : ∀ a, (![0, 0, 0, 0] : Fin 4 → Nat) a + S1x32x128x32.size a ≤ S1x32x128x800.size a
  h_S1x32x128x32 : 0 < S1x32x128x32.numel
  shapeCasts_S1x32x128x32_S32x128x32 : S1x32x128x32.ShapeCasts S32x128x32
  shapeCasts_S32x128x32_S1x32x128x32 : S32x128x32.ShapeCasts S1x32x128x32
  slices_S32x132x32_o0_1_0_S32x128x32 : S32x132x32.Slices ![0, 1, 0] S32x128x32
  inb_S1x32x128x800_S1x32x128x32_0_0_0_32 : ∀ a, (![0, 0, 0, 32] : Fin 4 → Nat) a + S1x32x128x32.size a ≤ S1x32x128x800.size a
  slices_S32x132x32_o0_2_0_S32x128x32 : S32x132x32.Slices ![0, 2, 0] S32x128x32
  inb_S1x32x128x800_S1x32x128x32_0_0_0_64 : ∀ a, (![0, 0, 0, 64] : Fin 4 → Nat) a + S1x32x128x32.size a ≤ S1x32x128x800.size a
  slices_S32x132x32_o0_3_0_S32x128x32 : S32x132x32.Slices ![0, 3, 0] S32x128x32
  inb_S1x32x128x800_S1x32x128x32_0_0_0_96 : ∀ a, (![0, 0, 0, 96] : Fin 4 → Nat) a + S1x32x128x32.size a ≤ S1x32x128x800.size a
  slices_S32x132x32_o0_4_0_S32x128x32 : S32x132x32.Slices ![0, 4, 0] S32x128x32
  inb_S1x32x128x800_S1x32x128x32_0_0_0_128 : ∀ a, (![0, 0, 0, 128] : Fin 4 → Nat) a + S1x32x128x32.size a ≤ S1x32x128x800.size a
  inb_S1x32x128x800_S1x32x128x32_0_0_0_160 : ∀ a, (![0, 0, 0, 160] : Fin 4 → Nat) a + S1x32x128x32.size a ≤ S1x32x128x800.size a
  inb_S1x32x128x800_S1x32x128x32_0_0_0_192 : ∀ a, (![0, 0, 0, 192] : Fin 4 → Nat) a + S1x32x128x32.size a ≤ S1x32x128x800.size a
  inb_S1x32x128x800_S1x32x128x32_0_0_0_224 : ∀ a, (![0, 0, 0, 224] : Fin 4 → Nat) a + S1x32x128x32.size a ≤ S1x32x128x800.size a
  inb_S1x32x128x800_S1x32x128x32_0_0_0_256 : ∀ a, (![0, 0, 0, 256] : Fin 4 → Nat) a + S1x32x128x32.size a ≤ S1x32x128x800.size a
  inb_S1x32x128x800_S1x32x128x32_0_0_0_288 : ∀ a, (![0, 0, 0, 288] : Fin 4 → Nat) a + S1x32x128x32.size a ≤ S1x32x128x800.size a
  inb_S1x32x128x800_S1x32x128x32_0_0_0_320 : ∀ a, (![0, 0, 0, 320] : Fin 4 → Nat) a + S1x32x128x32.size a ≤ S1x32x128x800.size a
  inb_S1x32x128x800_S1x32x128x32_0_0_0_352 : ∀ a, (![0, 0, 0, 352] : Fin 4 → Nat) a + S1x32x128x32.size a ≤ S1x32x128x800.size a
  inb_S1x32x128x800_S1x32x128x32_0_0_0_384 : ∀ a, (![0, 0, 0, 384] : Fin 4 → Nat) a + S1x32x128x32.size a ≤ S1x32x128x800.size a
  inb_S1x32x128x800_S1x32x128x32_0_0_0_416 : ∀ a, (![0, 0, 0, 416] : Fin 4 → Nat) a + S1x32x128x32.size a ≤ S1x32x128x800.size a
  inb_S1x32x128x800_S1x32x128x32_0_0_0_448 : ∀ a, (![0, 0, 0, 448] : Fin 4 → Nat) a + S1x32x128x32.size a ≤ S1x32x128x800.size a
  inb_S1x32x128x800_S1x32x128x32_0_0_0_480 : ∀ a, (![0, 0, 0, 480] : Fin 4 → Nat) a + S1x32x128x32.size a ≤ S1x32x128x800.size a
  inb_S1x32x128x800_S1x32x128x32_0_0_0_512 : ∀ a, (![0, 0, 0, 512] : Fin 4 → Nat) a + S1x32x128x32.size a ≤ S1x32x128x800.size a
  inb_S1x32x128x800_S1x32x128x32_0_0_0_544 : ∀ a, (![0, 0, 0, 544] : Fin 4 → Nat) a + S1x32x128x32.size a ≤ S1x32x128x800.size a
  inb_S1x32x128x800_S1x32x128x32_0_0_0_576 : ∀ a, (![0, 0, 0, 576] : Fin 4 → Nat) a + S1x32x128x32.size a ≤ S1x32x128x800.size a
  inb_S1x32x128x800_S1x32x128x32_0_0_0_608 : ∀ a, (![0, 0, 0, 608] : Fin 4 → Nat) a + S1x32x128x32.size a ≤ S1x32x128x800.size a
  inb_S1x32x128x800_S1x32x128x32_0_0_0_640 : ∀ a, (![0, 0, 0, 640] : Fin 4 → Nat) a + S1x32x128x32.size a ≤ S1x32x128x800.size a
  inb_S1x32x128x800_S1x32x128x32_0_0_0_672 : ∀ a, (![0, 0, 0, 672] : Fin 4 → Nat) a + S1x32x128x32.size a ≤ S1x32x128x800.size a
  inb_S1x32x128x800_S1x32x128x32_0_0_0_704 : ∀ a, (![0, 0, 0, 704] : Fin 4 → Nat) a + S1x32x128x32.size a ≤ S1x32x128x800.size a
  inb_S1x32x128x800_S1x32x128x32_0_0_0_736 : ∀ a, (![0, 0, 0, 736] : Fin 4 → Nat) a + S1x32x128x32.size a ≤ S1x32x128x800.size a
  inb_S1x32x128x800_S1x32x128x32_0_0_0_768 : ∀ a, (![0, 0, 0, 768] : Fin 4 → Nat) a + S1x32x128x32.size a ≤ S1x32x128x800.size a
  hrank0 : 0 < grid0.rank
  k0_off1_inb : ∀ i : grid0.Coords, ∀ (r : Fin 5), ∀ a, (k0_off1 i (BitVec.ofNat 32 r.val)) a + S1x32x132x32.size a ≤ S1x132x132x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x132x132x32.size a ≤ S8x132x132x32.size a
  hwx0_0 : ∀ i : grid0.Coords, EltTy.bits .f32 = 32 ∨ (Rect.block (s := S8x132x132x32) S1x132x132x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x800.size a ≤ S8x128x128x800.size a
  hwx0_1 : ∀ i : grid0.Coords, EltTy.bits .f32 = 32 ∨ (Rect.block (s := S8x128x128x800) S1x32x128x800.size (cc0_transform_1 i) (hinb0_1 i)).WholeWords (EltTy.packing .f32)

variable [Facts₀]

abbrev win0_0 : Pipeline.Window sig grid0 :=
  Pipeline.Window.ofSpec (Memref.whole main_v0) S1x132x132x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x128x800.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x128x128x32 : Shape := ⟨4, ![8, 128, 128, 32]⟩
abbrev S_ : Shape := ⟨0, ![]⟩
abbrev S8x132x132x32 : Shape := ⟨4, ![8, 132, 132, 32]⟩
abbrev S128 : Shape := ⟨1, ![128]⟩
abbrev S128x1 : Shape := ⟨2, ![128, 1]⟩
abbrev S5 : Shape := ⟨1, ![5]⟩
abbrev S1x5 : Shape := ⟨2, ![1, 5]⟩
abbrev S128x5 : Shape := ⟨2, ![128, 5]⟩
abbrev S128x1x5x1 : Shape := ⟨4, ![128, 1, 5, 1]⟩
abbrev S1x128x1x5 : Shape := ⟨4, ![1, 128, 1, 5]⟩
abbrev S128x128x5x5 : Shape := ⟨4, ![128, 128, 5, 5]⟩
abbrev S128x128x5x5x1 : Shape := ⟨5, ![128, 128, 5, 5, 1]⟩
abbrev S128x128x5x5x2 : Shape := ⟨5, ![128, 128, 5, 5, 2]⟩
abbrev S8x128x128x5x5x32 : Shape := ⟨6, ![8, 128, 128, 5, 5, 32]⟩
abbrev S8x128x128x800 : Shape := ⟨4, ![8, 128, 128, 800]⟩

abbrev nBuf : Space → Nat
  | .hbm => 41
  | .vmem => 0
  | .smem => 0
  | _ => 0

abbrev bufTy : (tb : Table) → Fin (tcTables nBuf tb) → BufTy
  | .hbm, ⟨0, _⟩ => ⟨S8x128x128x32, .f32⟩
  | .hbm, ⟨1, _⟩ => ⟨S_, .i32⟩
  | .hbm, ⟨2, _⟩ => ⟨S_, .f32⟩
  | .hbm, ⟨3, _⟩ => ⟨S8x132x132x32, .f32⟩
  | .hbm, ⟨4, _⟩ => ⟨S128, .i32⟩
  | .hbm, ⟨5, _⟩ => ⟨S128x1, .i32⟩
  | .hbm, ⟨6, _⟩ => ⟨S5, .i32⟩
  | .hbm, ⟨7, _⟩ => ⟨S1x5, .i32⟩
  | .hbm, ⟨8, _⟩ => ⟨S128x5, .i32⟩
  | .hbm, ⟨9, _⟩ => ⟨S128x5, .i32⟩
  | .hbm, ⟨10, _⟩ => ⟨S128x5, .i32⟩
  | .hbm, ⟨11, _⟩ => ⟨S128, .i32⟩
  | .hbm, ⟨12, _⟩ => ⟨S128x1, .i32⟩
  | .hbm, ⟨13, _⟩ => ⟨S5, .i32⟩
  | .hbm, ⟨14, _⟩ => ⟨S1x5, .i32⟩
  | .hbm, ⟨15, _⟩ => ⟨S128x5, .i32⟩
  | .hbm, ⟨16, _⟩ => ⟨S128x5, .i32⟩
  | .hbm, ⟨17, _⟩ => ⟨S128x5, .i32⟩
  | .hbm, ⟨18, _⟩ => ⟨S128x1x5x1, .i32⟩
  | .hbm, ⟨19, _⟩ => ⟨S1x128x1x5, .i32⟩
  | .hbm, ⟨20, _⟩ => ⟨S_, .i32⟩
  | .hbm, ⟨21, _⟩ => ⟨S128x1x5x1, .i32⟩
  | .hbm, ⟨22, _⟩ => ⟨S128x1x5x1, .i1⟩
  | .hbm, ⟨23, _⟩ => ⟨S_, .i32⟩
  | .hbm, ⟨24, _⟩ => ⟨S128x1x5x1, .i32⟩
  | .hbm, ⟨25, _⟩ => ⟨S128x1x5x1, .i32⟩
  | .hbm, ⟨26, _⟩ => ⟨S128x1x5x1, .i32⟩
  | .hbm, ⟨27, _⟩ => ⟨S_, .i32⟩
  | .hbm, ⟨28, _⟩ => ⟨S1x128x1x5, .i32⟩
  | .hbm, ⟨29, _⟩ => ⟨S1x128x1x5, .i1⟩
  | .hbm, ⟨30, _⟩ => ⟨S_, .i32⟩
  | .hbm, ⟨31, _⟩ => ⟨S1x128x1x5, .i32⟩
  | .hbm, ⟨32, _⟩ => ⟨S1x128x1x5, .i32⟩
  | .hbm, ⟨33, _⟩ => ⟨S1x128x1x5, .i32⟩
  | .hbm, ⟨34, _⟩ => ⟨S128x128x5x5, .i32⟩
  | .hbm, ⟨35, _⟩ => ⟨S128x128x5x5, .i32⟩
  | .hbm, ⟨36, _⟩ => ⟨S128x128x5x5x1, .i32⟩
  | .hbm, ⟨37, _⟩ => ⟨S128x128x5x5x1, .i32⟩
  | .hbm, ⟨38, _⟩ => ⟨S128x128x5x5x2, .i32⟩
  | .hbm, ⟨39, _⟩ => ⟨S8x128x128x5x5x32, .f32⟩
  | .hbm, ⟨40, _⟩ => ⟨S8x128x128x800, .f32⟩
  | _, _ => ⟨S8x128x128x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_v17 : Ref sig .tc := ⟨.hbm, 21, rfl⟩
abbrev main_v18 : Ref sig .tc := ⟨.hbm, 22, rfl⟩
abbrev main_c_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_c_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]

class Facts₀ : Prop where
  pads_S8x128x128x32_S8x132x132x32_000_220_220_000 : S8x128x128x32.Pads (![0, 2, 2, 0] : Fin 4 → Nat) ![0, 2, 2, 0] ![0, 0, 0, 0] S8x132x132x32
  h_S_ : 0 < S_.numel
  bcast_S128_S128x1_0 : S128.BroadcastsInDim S128x1 (![0] : Fin 1 → Fin S128x1.rank)
  bcast_S5_S1x5_1 : S5.BroadcastsInDim S1x5 (![1] : Fin 1 → Fin S1x5.rank)
  bcast_S128x1_S128x5_0_1 : S128x1.BroadcastsInDim S128x5 (![0, 1] : Fin 2 → Fin S128x5.rank)
  bcast_S1x5_S128x5_0_1 : S1x5.BroadcastsInDim S128x5 (![0, 1] : Fin 2 → Fin S128x5.rank)
  bcast_S128x5_S128x1x5x1_0_2 : S128x5.BroadcastsInDim S128x1x5x1 (![0, 2] : Fin 2 → Fin S128x1x5x1.rank)
  bcast_S128x5_S1x128x1x5_1_3 : S128x5.BroadcastsInDim S1x128x1x5 (![1, 3] : Fin 2 → Fin S1x128x1x5.rank)
  bcast_S_S128x1x5x1 : S_.BroadcastsInDim S128x1x5x1 (![] : Fin 0 → Fin S128x1x5x1.rank)
  bcast_S_S1x128x1x5 : S_.BroadcastsInDim S1x128x1x5 (![] : Fin 0 → Fin S1x128x1x5.rank)
  bcast_S128x1x5x1_S128x128x5x5_0_1_2_3 : S128x1x5x1.BroadcastsInDim S128x128x5x5 (![0, 1, 2, 3] : Fin 4 → Fin S128x128x5x5.rank)
  bcast_S1x128x1x5_S128x128x5x5_0_1_2_3 : S1x128x1x5.BroadcastsInDim S128x128x5x5 (![0, 1, 2, 3] : Fin 4 → Fin S128x128x5x5.rank)
  bcast_S128x128x5x5_S128x128x5x5x1_0_1_2_3 : S128x128x5x5.BroadcastsInDim S128x128x5x5x1 (![0, 1, 2, 3] : Fin 4 → Fin S128x128x5x5x1.rank)
  concatenates_S128x128x5x5x1_S128x128x5x5x1_S128x128x5x5x2_d4 : Shape.Concatenates [S128x128x5x5x1, S128x128x5x5x1] S128x128x5x5x2 4
  shapeCasts_S8x128x128x5x5x32_S8x128x128x800 : S8x128x128x5x5x32.ShapeCasts S8x128x128x800
  gather_S8x132x132x32_S128x128x5x5x2_S8x128x128x5x5x32_05_12_n_n_12_4_81132_wf : GatherDims.WF S8x132x132x32 S128x128x5x5x2 S8x128x128x5x5x32 [0, 5] [1, 2] [] [1, 2] [] 4 ![8, 1, 1, 32]

variable [Facts₀]

def gather_S8x132x132x32_S128x128x5x5x2_S8x128x128x5x5x32_05_12_n_n_12_4_81132 : GatherDims S8x132x132x32 S128x128x5x5x2 S8x128x128x5x5x32 where
  offsetDims := [0, 5]
  collapsedSliceDims := [1, 2]
  operandBatchingDims := []
  startIndicesBatchingDims := []
  startIndexMap := [1, 2]
  indexVectorDim := 4
  sliceSizes := ![8, 1, 1, 32]
  wf := gather_S8x132x132x32_S128x128x5x5x2_S8x128x128x5x5x32_05_12_n_n_12_4_81132_wf

class Facts : Prop extends Facts₀ where

variable [Facts]
-- ==== Proof.Patch.lean ====
/-
  Patch extraction ("im2col") over a zero-padded image batch, as index maps.

  For a padded batch `P : [8, 132, 132, 32]` the patch array `[8, 128, 128, 800]` holds, at `(b, i, j, q)` with
  `q = (5·ki + kj)·32 + ch` (`ki, kj < 5`, `ch < 32`), the element `P (b, i + ki, j + kj, ch)`: every output element is a
  copy of one padded element, so the whole operation is a re-indexing. `patches` states it on the whole arrays,
  `blockPatches` on one image's padded plane `[1, 132, 132, 32]` and one band of 32 output rows `[1, 32, 128, 800]`
  (band `h` of 4), which is the unit the kernel works in; `blockPatches_of_plane` relates the two. The remaining lemmas read, at an index, what the kernel
  stores: a window of 32 padded rows, its leading unit axis dropped, cut to 128 columns from column `kj`, the unit axis put
  back (`window_slice_apply`); and that such a store, placed at lane offset `32·(5·ki + kj)` of the band, agrees with
  `blockPatches` at every index under it (`piece_agrees`).
-/
import Idealize.ShloMosaic.Lib.ValueIdx
import Idealize.ShloMosaic.Lib.ValueLayout
import Idealize.ShloMosaic.Lib.Pipeline.Value

namespace Cert.Patch

open Idealize.ShloMosaic Idealize.ShloMosaic.ValueIdx

variable {α : Type}

/-- The patch array of a padded batch: `(b, i, j, q) ↦ P (b, i + q / 160, j + (q / 32) % 5, q % 32)` — `q / 160` is the
    patch row `ki`, `(q / 32) % 5` the patch column `kj`, `q % 32` the channel. -/
def patches (P : (⟨4, ![8, 132, 132, 32]⟩ : Shape).Idx → α) : (⟨4, ![8, 128, 128, 800]⟩ : Shape).Idx → α := fun j =>
  P (ix4 (n0 := 8) (n1 := 132) (n2 := 132) (n3 := 32) ⟨(j 0).val, (j 0).isLt⟩
    ⟨(j 1).val + (j 3).val / 160, by
      have h1 : (j 1).val < 128 := (j 1).isLt
      have h3 : (j 3).val < 800 := (j 3).isLt
      omega⟩
    ⟨(j 2).val + (j 3).val / 32 % 5, by
      have h2 : (j 2).val < 128 := (j 2).isLt
      omega⟩
    ⟨(j 3).val % 32, by omega⟩)

/-- The same map on one image's padded plane and band `h` (output rows `32·h … 32·h + 31`): the band's row `r` reads
    padded row `32·h + r + ki`. -/
def blockPatches (X : (⟨4, ![1, 132, 132, 32]⟩ : Shape).Idx → α) (h : Fin 4) :
    (⟨4, ![1, 32, 128, 800]⟩ : Shape).Idx → α := fun y =>
  X (ix4 (n0 := 1) (n1 := 132) (n2 := 132) (n3 := 32) ⟨0, Nat.one_pos⟩
    ⟨32 * h.val + (y 1).val + (y 3).val / 160, by
      have h1 : (y 1).val < 32 := (y 1).isLt
      have h3 : (y 3).val < 800 := (y 3).isLt
      have := h.isLt
      omega⟩
    ⟨(y 2).val + (y 3).val / 32 % 5, by
      have h2 : (y 2).val < 128 := (y 2).isLt
      omega⟩
    ⟨(y 3).val % 32, by omega⟩)

/-- A window `[1, 32, 132, 32]` with its unit axis dropped, cut to columns `kj … kj + 127`, and the unit axis put back,
    reads at `(u, r, w, ch)` the window at `(0, r, w + kj, ch)`. -/
theorem window_slice_apply (v : (⟨4, ![1, 32, 132, 32]⟩ : Shape).Idx → α) (kj : Nat)
    (h1 : (⟨4, ![1, 32, 132, 32]⟩ : Shape).ShapeCasts ⟨3, ![32, 132, 32]⟩)
    (hs : (⟨3, ![32, 132, 32]⟩ : Shape).Slices ![0, kj, 0] ⟨3, ![32, 128, 32]⟩)
    (h2 : (⟨3, ![32, 128, 32]⟩ : Shape).ShapeCasts ⟨4, ![1, 32, 128, 32]⟩)
    (u : Fin 1) (r : Fin 32) (w : Fin 128) (ch : Fin 32) (hw : kj + w.val < 132) :
    shapeCast ⟨4, ![1, 32, 128, 32]⟩
        (extractStridedSlice ⟨3, ![32, 128, 32]⟩ ![0, kj, 0] (shapeCast ⟨3, ![32, 132, 32]⟩ v h1) hs) h2 (ix4 u r w ch)
      = v (ix4 (0 : Fin 1) r ⟨kj + w.val, hw⟩ ch) := by
  rw [shapeCast_abc_1abc_apply, slice3_axis1_eq, shapeCast_1abc_abc_apply]

/-- ONE STORE OF THE BAND: the window of 32 padded rows from row `32·h + ki`, cut from column `kj`, stored at lane offset
    `o = 32·(5·ki + kj)`, holds at every index `x` under it what `blockPatches` holds at the band index `x` is placed at. -/
theorem piece_agrees (X : (⟨4, ![1, 132, 132, 32]⟩ : Shape).Idx → α) (h : Fin 4) (ki kj : Nat) (hki : ki < 5) (hkj : kj < 5)
    (off : Fin 4 → Nat) (hoff : off = ![0, 32 * h.val + ki, 0, 0])
    (inbL : ∀ a, off a + (⟨4, ![1, 32, 132, 32]⟩ : Shape).size a ≤ (⟨4, ![1, 132, 132, 32]⟩ : Shape).size a)
    (o : Nat) (ho : o = 32 * (5 * ki + kj))
    (inbS : ∀ a, (![0, 0, 0, o] : Fin 4 → Nat) a + (⟨4, ![1, 32, 128, 32]⟩ : Shape).size a ≤ (⟨4, ![1, 32, 128, 800]⟩ : Shape).size a)
    (h1 : (⟨4, ![1, 32, 132, 32]⟩ : Shape).ShapeCasts ⟨3, ![32, 132, 32]⟩)
    (hs : (⟨3, ![32, 132, 32]⟩ : Shape).Slices ![0, kj, 0] ⟨3, ![32, 128, 32]⟩)
    (h2 : (⟨3, ![32, 128, 32]⟩ : Shape).ShapeCasts ⟨4, ![1, 32, 128, 32]⟩)
    (x : (⟨4, ![1, 32, 128, 32]⟩ : Shape).Idx) :
    shapeCast ⟨4, ![1, 32, 128, 32]⟩
        (extractStridedSlice ⟨3, ![32, 128, 32]⟩ ![0, kj, 0]
          (shapeCast ⟨3, ![32, 132, 32]⟩
            (fun z => X ((Rect.unit (s := ⟨4, ![1, 132, 132, 32]⟩) off (⟨4, ![1, 32, 132, 32]⟩ : Shape).size inbL).idx z)) h1) hs) h2 x
      = blockPatches X h
          ((Rect.unit (s := ⟨4, ![1, 32, 128, 800]⟩) ![0, 0, 0, o] (⟨4, ![1, 32, 128, 32]⟩ : Shape).size inbS).emb x) := by
  subst hoff ho
  obtain ⟨u, r, w, ch, rfl⟩ : ∃ (u : Fin 1) (r : Fin 32) (w : Fin 128) (ch : Fin 32), x = ix4 u r w ch :=
    ⟨x 0, x 1, x 2, x 3, eq_ix4 x⟩
  have hw : kj + w.val < 132 := by have := w.isLt; omega
  rw [window_slice_apply _ kj h1 hs h2 u r w ch hw]
  unfold blockPatches
  refine congrArg X (funext fun a => Fin.ext ?_)
  have hr := r.isLt; have hc := ch.isLt; have hww := w.isLt
  match a with
  | ⟨0, _⟩ => show 0 + 1 * 0 = 0; rfl
  | ⟨1, _⟩ =>
    show (32 * h.val + ki) + 1 * r.val = 32 * h.val + (0 + 1 * r.val) + (32 * (5 * ki + kj) + 1 * ch.val) / 160
    omega
  | ⟨2, _⟩ =>
    show 0 + 1 * (kj + w.val) = (0 + 1 * w.val) + (32 * (5 * ki + kj) + 1 * ch.val) / 32 % 5
    omega
  | ⟨3, _⟩ =>
    show 0 + 1 * ch.val = (32 * (5 * ki + kj) + 1 * ch.val) % 32
    omega

/-- A BAND OF ONE IMAGE IS A BAND OF THE BATCH: when `X` is image `b`'s plane of `P`, the band map of `X` at `y` is the patch array
    of `P` at any index `e` with image `b`, row `32·h + y₁`, column `y₂` and lane `y₃`. -/
theorem blockPatches_of_plane (P : (⟨4, ![8, 132, 132, 32]⟩ : Shape).Idx → α) (X : (⟨4, ![1, 132, 132, 32]⟩ : Shape).Idx → α)
    (b : Fin 8) (h : Fin 4)
    (hX : ∀ (r : Fin 132) (w : Fin 132) (ch : Fin 32), X (ix4 (⟨0, Nat.one_pos⟩ : Fin 1) r w ch) = P (ix4 b r w ch))
    (y : (⟨4, ![1, 32, 128, 800]⟩ : Shape).Idx) (e : (⟨4, ![8, 128, 128, 800]⟩ : Shape).Idx)
    (he0 : (e 0).val = b.val) (he1 : (e 1).val = 32 * h.val + (y 1).val) (he2 : (e 2).val = (y 2).val)
    (he3 : (e 3).val = (y 3).val) :
    blockPatches X h y = patches P e := by
  unfold blockPatches patches
  refine (hX _ _ _).trans (congrArg P (funext fun a => Fin.ext ?_))
  match a with
  | ⟨0, _⟩ => exact he0.symm
  | ⟨1, _⟩ =>
    show 32 * h.val + (y 1).val + (y 3).val / 160 = (e 1).val + (e 3).val / 160
    omega
  | ⟨2, _⟩ =>
    show (y 2).val + (y 3).val / 32 % 5 = (e 2).val + (e 3).val / 32 % 5
    omega
  | ⟨3, _⟩ =>
    show (y 3).val % 32 = (e 3).val % 32
    omega

end Cert.Patch
-- ==== Proof.KernelBand.lean ====
/-
  What one grid point of the idealized kernel leaves in its output band.

  At grid point `(b, h)` the body loads, for each patch row `ki = 0 … 4`, the 32 padded rows from row `32·h + ki` of
  image `b`'s padded plane, and stores that window cut from column `kj = 0 … 4` at lanes `32·(5·ki + kj) …` of the band:
  25 stores that tile the band `[1, 32, 128, 800]`. Each store agrees with the patch map of the plane on the indices it covers
  (`Cert.Patch.piece_agrees`), so the band the point leaves IS the patch map of the plane (`band_eq`), whatever the
  staging buffers and the float instance.
-/
import proofs.«103925_j36696200577416_1_alg».proof.Proof.Gen.KernelIdeal.Frame
import proofs.«103925_j36696200577416_1_alg».proof.Proof.Patch

set_option maxRecDepth 16384

noncomputable section

namespace Cert.KernelIdeal.Band

open Cert.KernelIdeal Cert.KernelIdeal.Gen Idealize.ShloMosaic Idealize.ShloMosaic.TcCoe Idealize.ShloMosaic.Tactic Idealize.SL.Sem

variable {F : FTy → Type} [FloatOps F]

/-- The band a grid point writes: its second coordinate. -/
abbrev bandOf (i : grid0.Coords) : Fin 4 := ⟨(i 1).val, (i 1).isLt⟩

-- the store of patch row `ki`, patch column `kj`: its window starts at padded row `32·h + ki` (the load's offsets in closed
-- form), is cut from column `kj`, and lands at lane `32·(5·ki + kj)`
set_option hygiene false in
local macro "piece " ki:num kj:num : term =>
  `(fun x => Cert.Patch.piece_agrees x0 (bandOf i) $ki $kj (by decide) (by decide) _ (k0_off1_eq i ⟨$ki, by decide⟩) _ _ rfl _ _ _ _ x)

/-- Every store the body makes at a grid point agrees, on the indices under it, with the patch map of the loaded plane:
    the stores in the order the run lists them, last first — `(ki, kj)` from `(4, 4)` down to `(0, 0)`. -/
theorem pieces_agree (c : Dev nD) (i : grid0.Coords) (arg2 : Memref sig .tc .vmem S1x132x132x32 .f32) (harg2 : arg2.IsWhole)
    (arg3 : Memref sig .tc .vmem S1x32x128x800 .f32) (harg3 : arg3.IsWhole) (x0 : Vec F S1x132x132x32 .f32) :
    ∀ p ∈ (kernelRun0_A c i arg2 harg2 arg3 harg3 x0).1, ∀ x : p.1.shape.Idx,
      p.2 x = Cert.Patch.blockPatches x0 (bandOf i) (p.1.emb x) := by
  unfold kernelRun0_A
  dsimp only
  sl_unfold_words
  simp only [View.readAt_eq_ld, harg2.read_unread, List.forall_mem_cons,
    k0_pay1, k0_pay2, k0_pay3, k0_pay4, k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27, k0_pay28, k0_pay29, k0_pay30, k0_pay31, k0_pay32]
  refine ⟨piece 4 4, piece 4 3, piece 4 2, piece 4 1, piece 4 0,
    piece 3 4, piece 3 3, piece 3 2, piece 3 1, piece 3 0,
    piece 2 4, piece 2 3, piece 2 2, piece 2 1, piece 2 0,
    piece 1 4, piece 1 3, piece 1 2, piece 1 1, piece 1 0,
    piece 0 4, piece 0 3, piece 0 2, piece 0 1, piece 0 0, ?_⟩
  intro p hp
  exact absurd hp List.not_mem_nil

/-- THE BAND A POINT LEAVES is the patch map of the plane it was given: the stores tile the band and each agrees with the
    map where it lands. -/
theorem band_eq (c : Dev nD) (i : grid0.Coords) (arg2 : Memref sig .tc .vmem S1x132x132x32 .f32) (harg2 : arg2.IsWhole)
    (arg3 : Memref sig .tc .vmem S1x32x128x800 .f32) (harg3 : arg3.IsWhole) (x0 : Vec F S1x132x132x32 .f32) :
    out0_A_1 c i arg2 harg2 arg3 harg3 x0 = Cert.Patch.blockPatches x0 (bandOf i) := by
  unfold out0_A_1
  rw [View.read_writes_eq_canon _ _ _ (cover0_A_1 c i arg2 harg2 arg3 harg3 x0)]
  funext y
  exact View.canon_apply_of_pieces _ _ (pieces_agree c i arg2 harg2 arg3 harg3 x0) y
    (cover0_A_1 c i arg2 harg2 arg3 harg3 x0 y)

end Cert.KernelIdeal.Band

end
-- ==== Proof.KernelPatches.lean ====
/-
  The idealized kernel's result array is the patch map of the padded array.

  The grid is `8 × 4`: point `t` is image `b = t / 4`, band `h = t % 4`. Its input window is image `b`'s whole padded plane, its
  output window rows `32·h … 32·h + 31` of image `b`'s patch array, and what it writes back is the patch map of the plane
  (`Cert.KernelIdeal.Band.band_eq`) — which is that block of the patch map of the whole padded array (`flushed_eq`). The 32
  output blocks tile the array (`cover`), so after the run the array is the patch map of the padded array as the region
  found it (`final`), and that array is the host's zero padding of the argument (`padded_eq`): `run`.
-/
import proofs.«103925_j36696200577416_1_alg».proof.Proof.Gen.KernelIdeal.Value
import proofs.«103925_j36696200577416_1_alg».proof.Proof.KernelBand
import Idealize.ShloMosaic.Lib.StableHlo.Run

set_option maxRecDepth 16384

noncomputable section

namespace Cert.KernelIdeal.Patches

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The printed index maps over the grid: the input window's block is image `t / 4`'s plane, the output window's block is band
    `t % 4` of image `t / 4`, and the body's second grid coordinate is the band. -/
theorem idx_facts : ∀ t : Fin cfg0.N,
    win0_0.index t (0 : Fin 4) = t.val / 4 ∧ win0_0.index t (1 : Fin 4) = 0
    ∧ win0_0.index t (2 : Fin 4) = 0 ∧ win0_0.index t (3 : Fin 4) = 0
    ∧ win0_1.index t (0 : Fin 4) = t.val / 4 ∧ win0_1.index t (1 : Fin 4) = t.val % 4
    ∧ win0_1.index t (2 : Fin 4) = 0 ∧ win0_1.index t (3 : Fin 4) = 0
    ∧ ((grid0.coords t) 1).val = t.val % 4 :=
  (by decide +kernel : ∀ t : Fin grid0.N, _)

/-- The input block at point `t` is image `t / 4`'s plane of the padded array. -/
theorem plane_eq (c : Dev nD) (t : Fin cfg0.N) (hb : t.val / 4 < 8) (r : Fin 132) (w : Fin 132) (ch : Fin 32) :
    iblk m c 0 t (ix4 (⟨0, Nat.one_pos⟩ : Fin 1) r w ch) = V m c main_v0 (ix4 (⟨t.val / 4, hb⟩ : Fin 8) r w ch) := by
  obtain ⟨e0, e1, e2, e3, -⟩ := idx_facts t
  show V m c main_v0 (((cfg0.win 0).blk t).view.emb (ix4 (⟨0, Nat.one_pos⟩ : Fin 1) r w ch)) = _
  refine congrArg (V m c main_v0) (funext fun a => Fin.ext ?_)
  match a with
  | ⟨0, _⟩ => show win0_0.index t (0 : Fin 4) * 1 + 1 * 0 = t.val / 4; omega
  | ⟨1, _⟩ => show win0_0.index t (1 : Fin 4) * 132 + 1 * r.val = r.val; omega
  | ⟨2, _⟩ => show win0_0.index t (2 : Fin 4) * 132 + 1 * w.val = w.val; omega
  | ⟨3, _⟩ => show win0_0.index t (3 : Fin 4) * 32 + 1 * ch.val = ch.val; omega

/-- WHAT POINT `t` WRITES BACK is block `t` of the patch map of the padded array as the region finds it. -/
theorem flushed_eq (c : Dev nD) (t : Fin cfg0.N) :
    (dats m 0 c).flushed 1 t = ((cfg0.win 1).blk t).view.read (Elt F) (Cert.Patch.patches (V m c main_v0)) := by
  have hN : t.val < 32 := Nat.lt_of_lt_of_eq t.isLt N_0
  have hb : t.val / 4 < 8 := by omega
  obtain ⟨-, -, -, -, e0, e1, e2, e3, eh⟩ := idx_facts t
  rw [Value.flushed1_A, Band.band_eq]
  funext y
  show Cert.Patch.blockPatches (iblk m c 0 t) (Band.bandOf (grid0.coords t)) y
    = Cert.Patch.patches (V m c main_v0) (((cfg0.win 1).blk t).view.emb y)
  have hy0 : (y 0).val < 1 := (y 0).isLt
  refine Cert.Patch.blockPatches_of_plane (V m c main_v0) (iblk m c 0 t) ⟨t.val / 4, hb⟩ (Band.bandOf (grid0.coords t))
    (plane_eq m c t hb) y _ ?_ ?_ ?_ ?_
  · show win0_1.index t (0 : Fin 4) * 1 + 1 * (y 0).val = t.val / 4; omega
  · show win0_1.index t (1 : Fin 4) * 32 + 1 * (y 1).val = 32 * ((grid0.coords t) 1).val + (y 1).val; omega
  · show win0_1.index t (2 : Fin 4) * 128 + 1 * (y 2).val = (y 2).val; omega
  · show win0_1.index t (3 : Fin 4) * 800 + 1 * (y 3).val = (y 3).val; omega

/-- An index of the patch array is in point `t`'s block iff each coordinate is in the block's range on its axis. -/
theorem mem_blk (t : Fin cfg0.N) (i : S8x128x128x800.Idx) :
    i ∈ ((cfg0.win 1).blk t).view.set ↔ ∀ a : Fin 4, win0_1.index t a * S1x32x128x800.size a ≤ (i a).val
      ∧ (i a).val < win0_1.index t a * S1x32x128x800.size a + S1x32x128x800.size a := by
  show i ∈ ((View.whole main_v1).slice (win0_1.rect t)).set ↔ _
  rw [View.set_slice_whole, Rect.mem_set_unit]
  exact Iff.rfl

/-- THE BLOCKS TILE THE ARRAY: index `(b, r, w, q)` is in the block of point `4·b + r / 32`, and every point writes back. -/
theorem cover (i : S8x128x128x800.Idx) :
    ∃ t : Fin cfg0.N, (cfg0.win 1).flush t = true ∧ i ∈ ((cfg0.win 1).blk t).view.set := by
  have h0 : (i 0).val < 8 := (i 0).isLt
  have h1 : (i 1).val < 128 := (i 1).isLt
  have h2 : (i 2).val < 128 := (i 2).isLt
  have h3 : (i 3).val < 800 := (i 3).isLt
  obtain ⟨t, ht⟩ : ∃ t : Fin cfg0.N, t.val = 4 * (i 0).val + (i 1).val / 32 :=
    ⟨⟨4 * (i 0).val + (i 1).val / 32, by rw [show cfg0.N = 32 from N_0]; omega⟩, rfl⟩
  obtain ⟨-, -, -, -, e0, e1, e2, e3, -⟩ := idx_facts t
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 32 ≤ (i 1).val ∧ (i 1).val < win0_1.index t (1 : Fin 4) * 32 + 32
    omega
  | ⟨2, _⟩ =>
    show win0_1.index t (2 : Fin 4) * 128 ≤ (i 2).val ∧ (i 2).val < win0_1.index t (2 : Fin 4) * 128 + 128
    omega
  | ⟨3, _⟩ =>
    show win0_1.index t (3 : Fin 4) * 800 ≤ (i 3).val ∧ (i 3).val < win0_1.index t (3 : Fin 4) * 800 + 800
    omega

/-- THE ARRAY after the run: the patch map of the padded array. -/
theorem final (c : Dev nD) : (dats m 0 c).arrAt 1 cfg0.N = Cert.Patch.patches (V m c main_v0) :=
  (dats m 0 c).arrAt_eq_of_cover 1 _ (fun t _ => flushed_eq m c t) cover

/-- The padded array the region finds is the host's padding of the argument with the converted zero. -/
theorem padded_eq (c : Dev nD) :
    (V m c main_v0 : S8x132x132x32.Idx → Elt F .f32)
      = pad S8x132x132x32 ![0, 2, 2, 0] ![0, 2, 2, 0] ![0, 0, 0, 0] (m ((c : Thread nD τ).loc main_arg0))
          (sitofp .f32 (constantI S_ 32 0#32)) pads_S8x128x128x32_S8x132x132x32_000_220_220_000 h_S_ := by
  dsimp only [Gen.V]
  simp only [Gen.hostOps0, Gen.hostOps0_1, List.flatten_cons, List.flatten_nil, List.append_nil, List.cons_append,
    List.nil_append]
  after_results
  rfl

/-- The run: the result array ends at the patch map of the padded argument, the argument unchanged. -/
theorem run : θ_run defs (onTc (τ := τ) (main (F := F))) ⟨m, fun _ => 0, ρ⟩ fun r => ∀ c : Dev nD,
      r.2.mem ((c : Thread nD τ).loc main_v1)
        = Cert.Patch.patches (pad S8x132x132x32 ![0, 2, 2, 0] ![0, 2, 2, 0] ![0, 0, 0, 0] (m ((c : Thread nD τ).loc main_arg0))
            (sitofp .f32 (constantI S_ 32 0#32)) pads_S8x128x128x32_S8x132x132x32_000_220_220_000 h_S_)
      ∧ r.2.mem ((c : Thread nD τ).loc main_arg0) = m ((c : Thread nD τ).loc main_arg0) :=
  (θ_run defs _ _).mono (fun r h c => ⟨(h c).1.trans ((final m c).trans (congrArg Cert.Patch.patches (padded_eq m c))), (h c).2⟩)
    (Value.run_blocks m ρ)

end Cert.KernelIdeal.Patches

end
-- ==== Proof.RefPatches.lean ====
/-
  The reference's result is the patch map of its padded array.

  The reference builds two index tables by broadcasting and adding iotas — `ri[i, ki] = i + ki` along rows and
  `ci[j, kj] = j + kj` along columns —, wraps an index below zero around by the padded extent 132 (never taken: the sums are
  non-negative), joins the two tables into start indices `[128, 128, 5, 5, 2]` and gathers `padded[:, ri, ci, :]`: result element
  `(b, i, j, ki, kj, ch)` is `padded (b, i + ki, j + kj, ch)`, the start rows `i + ki ≤ 131` and columns `j + kj ≤ 131` inside
  the padded extents, so the gather's clamp does nothing. The final reshape merges `(ki, kj, ch)` into one axis of
  `5·5·32 = 800` in row-major order: position `q` is `ki = q / 160`, `kj = (q / 32) % 5`, `ch = q % 32`. Together
  (`result_eq`): the reference's result is `Cert.Patch.patches` of the padded array.
-/
import proofs.«103925_j36696200577416_1_alg».proof.Proof.Gen.ReferenceIdeal.Read
import proofs.«103925_j36696200577416_1_alg».proof.Proof.Patch
import Idealize.ShloMosaic.Lib.StableHlo.Predicate

noncomputable section

namespace Cert.ReferenceIdeal.Patches

open Cert.ReferenceIdeal Cert.ReferenceIdeal.Gen Cert.ReferenceIdeal.Read
open Idealize.ShloMosaic Idealize.ShloMosaic.ValueIdx

variable {F : FTy → Type} [FloatOps F]

/-! ## Small words -/

/-- Word addition of two numerals is the numeral of the sum. -/
theorem addi_ofNat (a b : Nat) : IntOp.addi (BitVec.ofNat 32 a) (BitVec.ofNat 32 b) = BitVec.ofNat 32 (a + b) := by
  unfold IntOp.addi
  exact (BitVec.ofNat_add a b).symm

/-- A small non-negative word is not below zero. -/
theorem slt_zero_ofNat (n : Nat) (h : n < 2 ^ 31) : IntOp.cmpi .slt (BitVec.ofNat 32 n) 0#32 = 0#1 := by
  apply eq_zero_of_ne_one
  intro h1
  have h2 := (StableHlo.Predicate.slt_iff_toNat (a := BitVec.ofNat 32 n) (b := 0#32)
    (by rw [BitVec.toNat_ofNat]; omega) (by decide)).mp h1
  simp at h2

/-! ## The two index tables -/

/-- The row table after the wrap: `i + ki`. -/
theorem rowStart (i : Fin 128) (ki : Fin 5) :
    val_main_v21 (F := F) (ix4 i (0 : Fin 1) ki (0 : Fin 1)) = BitVec.ofNat 32 (i.val + ki.val) := by
  rw [val_main_v21_apply, val_main_v18_apply, val_main_v15_apply, val_main_v17_apply, val_main_c_0_apply,
    val_main_v7_apply, val_main_v5_apply, val_main_v6_apply, val_main_v2_apply, val_main_v4_apply,
    val_main_v1_apply, val_main_v3_apply]
  show Scalar.select (IntOp.cmpi .slt (IntOp.addi (BitVec.ofNat 32 i.val) (BitVec.ofNat 32 ki.val)) 0#32) _
    (IntOp.addi (BitVec.ofNat 32 i.val) (BitVec.ofNat 32 ki.val)) = _
  rw [addi_ofNat, slt_zero_ofNat _ (by have := i.isLt; have := ki.isLt; omega), select_zero]

/-- The column table after the wrap: `j + kj`. -/
theorem colStart (j : Fin 128) (kj : Fin 5) :
    val_main_v26 (F := F) (ix4 (0 : Fin 1) j (0 : Fin 1) kj) = BitVec.ofNat 32 (j.val + kj.val) := by
  rw [val_main_v26_apply, val_main_v23_apply, val_main_v16_apply, val_main_v22_apply, val_main_c_2_apply,
    val_main_v14_apply, val_main_v12_apply, val_main_v13_apply, val_main_v9_apply, val_main_v11_apply,
    val_main_v8_apply, val_main_v10_apply]
  show Scalar.select (IntOp.cmpi .slt (IntOp.addi (BitVec.ofNat 32 j.val) (BitVec.ofNat 32 kj.val)) 0#32) _
    (IntOp.addi (BitVec.ofNat 32 j.val) (BitVec.ofNat 32 kj.val)) = _
  rw [addi_ofNat, slt_zero_ofNat _ (by have := j.isLt; have := kj.isLt; omega), select_zero]

/-- The start indices' row component at `(i, j, ki, kj)`. -/
theorem start_row (i j : Fin 128) (ki kj : Fin 5) :
    val_main_v31 (F := F) (ix5 i j ki kj (0 : Fin 2)) = BitVec.ofNat 32 (i.val + ki.val) := by
  unfold val_main_v31
  refine (concatenate_pair_apply_left (t := S128x128x5x5x2) (s₁ := S128x128x5x5x1) (s₂ := S128x128x5x5x1) (4 : Fin 5)
    (val_main_v29 (F := F)) (val_main_v30 (F := F)) concatenates_S128x128x5x5x1_S128x128x5x5x1_S128x128x5x5x2_d4
    (ix5 i j ki kj (0 : Fin 2)) rfl (ix5 i j ki kj (0 : Fin 1)) (fun b => by
      match b with
      | ⟨0, _⟩ => rfl
      | ⟨1, _⟩ => rfl
      | ⟨2, _⟩ => rfl
      | ⟨3, _⟩ => rfl
      | ⟨4, _⟩ => rfl)).trans ?_
  rw [val_main_v29_apply, val_main_v27_apply]
  exact rowStart i ki

/-- The start indices' column component at `(i, j, ki, kj)`. -/
theorem start_col (i j : Fin 128) (ki kj : Fin 5) :
    val_main_v31 (F := F) (ix5 i j ki kj (1 : Fin 2)) = BitVec.ofNat 32 (j.val + kj.val) := by
  unfold val_main_v31
  refine (concatenate_pair_apply_right (t := S128x128x5x5x2) (s₁ := S128x128x5x5x1) (s₂ := S128x128x5x5x1) (4 : Fin 5)
    (val_main_v29 (F := F)) (val_main_v30 (F := F)) concatenates_S128x128x5x5x1_S128x128x5x5x1_S128x128x5x5x2_d4
    (ix5 i j ki kj (1 : Fin 2)) rfl rfl (ix5 i j ki kj (0 : Fin 1)) (fun b hb => by
      match b with
      | ⟨0, _⟩ => rfl
      | ⟨1, _⟩ => rfl
      | ⟨2, _⟩ => rfl
      | ⟨3, _⟩ => rfl
      | ⟨4, _⟩ => exact absurd rfl hb) rfl).trans ?_
  rw [val_main_v30_apply, val_main_v28_apply]
  exact colStart j kj

/-! ## The gather at an index -/

/-- The gather's dimension numbers: operand `[8, 132, 132, 32]`, start indices `[128, 128, 5, 5, 2]` whose last axis holds the
    (row, column) pair, the operand's axes 1 and 2 collapsed, its axes 0 and 3 kept whole as the result's axes 0 and 5. -/
abbrev gd : GatherDims S8x132x132x32 S128x128x5x5x2 S8x128x128x5x5x32 :=
  gather_S8x132x132x32_S128x128x5x5x2_S8x128x128x5x5x32_05_12_n_n_12_4_81132

/-- Result index `(b, i, j, ki, kj, ch)` reads component `c` of its start index at `(i, j, ki, kj, c)`. -/
theorem siIdx_eq (b : Fin 8) (i j : Fin 128) (ki kj : Fin 5) (ch : Fin 32) (c : Fin 2)
    (c' : Fin gd.startIndexMap.length) (hc : c'.val = c.val) :
    gd.siIdx (ix6 b i j ki kj ch) c' = ix5 i j ki kj c := by
  funext a; refine Fin.ext ?_
  match a with
  | ⟨0, _⟩ => rfl
  | ⟨1, _⟩ => rfl
  | ⟨2, _⟩ => rfl
  | ⟨3, _⟩ => rfl
  | ⟨4, _⟩ => exact hc

/-- THE GATHER AT AN INDEX: `(b, i, j, ki, kj, ch)` reads the operand at `(b, i + ki, j + kj, ch)` — the start row and column
    are inside the operand, so the clamp leaves them. -/
theorem gather_apply {α : Type} (P : S8x132x132x32.Idx → α) (b : Fin 8) (i j : Fin 128) (ki kj : Fin 5) (ch : Fin 32)
    (hr : i.val + ki.val < 132) (hc : j.val + kj.val < 132) :
    Host.gather gd P (val_main_v31 (F := F)) (ix6 b i j ki kj ch)
      = P (ix4 b ⟨i.val + ki.val, hr⟩ ⟨j.val + kj.val, hc⟩ ch) := by
  unfold Host.gather
  refine congrArg P (funext fun a => Fin.ext ?_)
  show gd.start (ix6 b i j ki kj ch) (val_main_v31 (F := F)) a + gd.batchCoord (ix6 b i j ki kj ch) a
    + gd.offCoord (ix6 b i j ki kj ch) a = _
  rw [GatherDims.batchCoord_eq_zero _ _ _ List.not_mem_nil, Nat.add_zero]
  match a with
  | ⟨0, _⟩ =>
    have h0 : gd.start (ix6 b i j ki kj ch) (val_main_v31 (F := F)) (0 : Fin 4) = 0 := by
      unfold GatherDims.start; rw [dif_neg (by decide)]
    have h1 : gd.offCoord (ix6 b i j ki kj ch) (0 : Fin 4) = b.val := by
      unfold GatherDims.offCoord; rw [dif_pos (by decide)]; rfl
    show gd.start (ix6 b i j ki kj ch) (val_main_v31 (F := F)) (0 : Fin 4) + gd.offCoord (ix6 b i j ki kj ch) (0 : Fin 4) = b.val
    rw [h0, h1, Nat.zero_add]
  | ⟨1, _⟩ =>
    have h1 : gd.offCoord (ix6 b i j ki kj ch) (1 : Fin 4) = 0 := by
      unfold GatherDims.offCoord; rw [dif_neg (by decide)]
    have h0 : gd.start (ix6 b i j ki kj ch) (val_main_v31 (F := F)) (1 : Fin 4) = i.val + ki.val := by
      unfold GatherDims.start; rw [dif_pos (by decide)]
      rw [siIdx_eq b i j ki kj ch (0 : Fin 2) _ (by decide), start_row,
        StableHlo.Predicate.toInt_ofNat_small _ (by omega), Int.toNat_natCast]
      show min (i.val + ki.val) (132 - 1) = _
      omega
    show gd.start (ix6 b i j ki kj ch) (val_main_v31 (F := F)) (1 : Fin 4) + gd.offCoord (ix6 b i j ki kj ch) (1 : Fin 4) = i.val + ki.val
    rw [h0, h1, Nat.add_zero]
  | ⟨2, _⟩ =>
    have h1 : gd.offCoord (ix6 b i j ki kj ch) (2 : Fin 4) = 0 := by
      unfold GatherDims.offCoord; rw [dif_neg (by decide)]
    have h0 : gd.start (ix6 b i j ki kj ch) (val_main_v31 (F := F)) (2 : Fin 4) = j.val + kj.val := by
      unfold GatherDims.start; rw [dif_pos (by decide)]
      rw [siIdx_eq b i j ki kj ch (1 : Fin 2) _ (by decide), start_col,
        StableHlo.Predicate.toInt_ofNat_small _ (by omega), Int.toNat_natCast]
      show min (j.val + kj.val) (132 - 1) = _
      omega
    show gd.start (ix6 b i j ki kj ch) (val_main_v31 (F := F)) (2 : Fin 4) + gd.offCoord (ix6 b i j ki kj ch) (2 : Fin 4) = j.val + kj.val
    rw [h0, h1, Nat.add_zero]
  | ⟨3, _⟩ =>
    have h0 : gd.start (ix6 b i j ki kj ch) (val_main_v31 (F := F)) (3 : Fin 4) = 0 := by
      unfold GatherDims.start; rw [dif_neg (by decide)]
    have h1 : gd.offCoord (ix6 b i j ki kj ch) (3 : Fin 4) = ch.val := by
      unfold GatherDims.offCoord; rw [dif_pos (by decide)]; rfl
    show gd.start (ix6 b i j ki kj ch) (val_main_v31 (F := F)) (3 : Fin 4) + gd.offCoord (ix6 b i j ki kj ch) (3 : Fin 4) = ch.val
    rw [h0, h1, Nat.zero_add]

/-! ## The reshape, and the whole stage -/

/-- THE REFERENCE'S RESULT is the patch map of its padded array: the reshape sends `(b, i, j, q)` to the gather's
    `(b, i, j, q / 160, (q / 32) % 5, q % 32)` (equal row-major positions), which reads the padded array at
    `(b, i + q / 160, j + (q / 32) % 5, q % 32)`. -/
theorem result_eq (x0 : (⟨S8x128x128x32, .f32⟩ : BufTy).Contents (Elt F)) :
    val_main_v33 (F := F) x0 = Cert.Patch.patches (val_main_v0 (F := F) x0) := by
  funext q
  obtain ⟨b, i, j, l, rfl⟩ : ∃ (b : Fin 8) (i j : Fin 128) (l : Fin 800), q = ix4 b i j l :=
    ⟨q 0, q 1, q 2, q 3, eq_ix4 q⟩
  have hb := b.isLt; have hi := i.isLt; have hj := j.isLt; have hl := l.isLt
  unfold val_main_v33
  refine (shapeCast_apply _ _ (ix4 b i j l)
    (ix6 b i j (⟨l.val / 160, by omega⟩ : Fin 5) (⟨l.val / 32 % 5, by omega⟩ : Fin 5) (⟨l.val % 32, by omega⟩ : Fin 32)) ?_).trans ?_
  · rw [Shape.rowMajor_val_six, Shape.rowMajor_val_four]
    show ((((b.val * 128 + i.val) * 128 + j.val) * 5 + l.val / 160) * 5 + l.val / 32 % 5) * 32 + l.val % 32
      = ((b.val * 128 + i.val) * 128 + j.val) * 800 + l.val
    omega
  · have hrow : i.val + l.val / 160 < 132 := by omega
    have hcol : j.val + l.val / 32 % 5 < 132 := by omega
    unfold val_main_v32
    exact gather_apply (F := F) (val_main_v0 (F := F) x0) b i j ⟨l.val / 160, by omega⟩ ⟨l.val / 32 % 5, by omega⟩
      ⟨l.val % 32, by omega⟩ hrow hcol

end Cert.ReferenceIdeal.Patches

end
-- ==== Proof.lean ====
/-
  Patch extraction by a Pallas kernel against its jnp reference: both are the same re-indexing of the zero-padded batch.

  The programs take `images : f32[8, 128, 128, 32]` and return `f32[8, 128, 128, 800]`. Both first zero-pad the two spatial axes
  by 2 on each side — the same host operation on the same operands, so the padded array `P : [8, 132, 132, 32]` is one term on
  both sides and is never opened. The claim is then that both results are `Cert.Patch.patches P`:
      result (b, i, j, q) = P (b, i + q / 160, j + (q / 32) % 5, q % 32),   q = (5·ki + kj)·32 + ch.
  • The kernel (Proof/KernelBand.lean, Proof/KernelPatches.lean): grid point `(b, h)` holds image `b`'s padded plane and writes
    rows `32·h … 32·h + 31` of image `b`'s patches by 25 stores, one per `(ki, kj)`: the 32 padded rows from `32·h + ki`, cut to
    the 128 columns from `kj`, at lanes `32·(5·ki + kj) …`. The stores tile the band and the 32 bands tile the array.
  • The reference (Proof/RefPatches.lean): a gather at start indices `(i + ki, j + kj)` built from iotas, then a row-major
    reshape of `(ki, kj, ch)` into one axis of 800.
  No arithmetic is done on the elements, so the equality holds element by element for any contents: the finiteness
  precondition is not used. The three frames are the generated ones (the reference's is its generated run with the result
  dropped), and the idealization rewrote nothing, so `preserves` is `True`.
-/
import proofs.«103925_j36696200577416_1_alg».proof.Defs
import proofs.«103925_j36696200577416_1_alg».proof.Proof.Gen.Kernel
import proofs.«103925_j36696200577416_1_alg».proof.Proof.Gen.Kernel.Skeleton
import proofs.«103925_j36696200577416_1_alg».proof.Proof.Gen.Kernel.Launch
import proofs.«103925_j36696200577416_1_alg».proof.Proof.Gen.Kernel.Points
import proofs.«103925_j36696200577416_1_alg».proof.Proof.Gen.Kernel.Frame
import proofs.«103925_j36696200577416_1_alg».proof.Proof.Gen.KernelIdeal
import proofs.«103925_j36696200577416_1_alg».proof.Proof.Gen.KernelIdeal.Skeleton
import proofs.«103925_j36696200577416_1_alg».proof.Proof.Gen.KernelIdeal.Launch
import proofs.«103925_j36696200577416_1_alg».proof.Proof.Gen.KernelIdeal.Points
import proofs.«103925_j36696200577416_1_alg».proof.Proof.Gen.KernelIdeal.Frame
import proofs.«103925_j36696200577416_1_alg».proof.Proof.Gen.ReferenceIdeal
import proofs.«103925_j36696200577416_1_alg».proof.Proof.Gen.Pre_finite_inputs
import proofs.«103925_j36696200577416_1_alg».proof.Proof.Gen.KernelIdeal.Value
import proofs.«103925_j36696200577416_1_alg».proof.Proof.Gen.ReferenceIdeal.Run
import proofs.«103925_j36696200577416_1_alg».proof.Proof.Gen.ReferenceIdeal.Read
import proofs.«103925_j36696200577416_1_alg».proof.Proof.KernelPatches
import proofs.«103925_j36696200577416_1_alg».proof.Proof.RefPatches
import Idealize.ShloMosaic.Adequacy
import Idealize.ShloMosaic.Init

noncomputable section

namespace Cert.Proof

open Idealize.ShloMosaic Idealize.ShloMosaic.TcCoe Idealize.SL.Sem

/-- The word-level kernel runs and leaves its argument as it found it. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the images, both programs end at the patch map of the zero-padded images. -/
theorem algebraic : Cert.algebraic_KernelIdeal_ReferenceIdeal := by
  intro m ρ m' ρ' _ hagree
  refine ⟨_, Cert.KernelIdeal.Patches.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.Patches.result_eq, hagree c]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
